-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S4096 .f32) : IVec S_ 1 :=
  let main_v0 : FVec F S4096 .f32 := Host.absf main_arg0
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_c : IVec S_ 1 := constantI S_ 1 1#1
  let main_v3 : IVec S_ 1 := (fun x v => Host.reduce IntOp.andi x v reducesTo_S4096_S_d0 h_S_) main_v2 main_c
  main_v3
-- ==== Kernel.lean ====
abbrev S4096 : Shape := ⟨1, ![4096]⟩
abbrev S4x1024 : Shape := ⟨2, ![4, 1024]⟩
abbrev S_ : Shape := ⟨0, ![]⟩
abbrev S1x4x1x1024 : Shape := ⟨4, ![1, 4, 1, 1024]⟩
abbrev S256x4x1x1024 : Shape := ⟨4, ![256, 4, 1, 1024]⟩
abbrev S1024x1024 : Shape := ⟨2, ![1024, 1024]⟩
abbrev S48x1024x1024 : Shape := ⟨3, ![48, 1024, 1024]⟩
abbrev S4x1024x1024 : Shape := ⟨3, ![4, 1024, 1024]⟩
abbrev S1x1024x1024 : Shape := ⟨3, ![1, 1024, 1024]⟩

abbrev nBuf : Space → Nat
  | .hbm => 16
  | .vmem => 3
  | .smem => 0
  | _ => 0

abbrev bufTy : (tb : Table) → Fin (tcTables nBuf tb) → BufTy
  | .hbm, ⟨0, _⟩ => ⟨S4096, .f32⟩
  | .hbm, ⟨1, _⟩ => ⟨S4x1024, .f32⟩
  | .hbm, ⟨2, _⟩ => ⟨S4x1024, .f32⟩
  | .hbm, ⟨3, _⟩ => ⟨S_, .f32⟩
  | .hbm, ⟨4, _⟩ => ⟨S4x1024, .f32⟩
  | .hbm, ⟨5, _⟩ => ⟨S4x1024, .i1⟩
  | .hbm, ⟨6, _⟩ => ⟨S_, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S1x4x1x1024, .f32⟩
  | .hbm, ⟨13, _⟩ => ⟨S256x4x1x1024, .f32⟩
  | .hbm, ⟨14, _⟩ => ⟨S1024x1024, .f32⟩
  | .hbm, ⟨15, _⟩ => ⟨S48x1024x1024, .f32⟩
  | .local _ .vmem, ⟨0, _⟩ => ⟨S1024x1024, .f32⟩
  | .local _ .vmem, ⟨1, _⟩ => ⟨S4x1024x1024, .f32⟩
  | .local _ .vmem, ⟨2, _⟩ => ⟨S4x1024x1024, .f32⟩
  | _, _ => ⟨S4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S4096_S4x1024 : S4096.ShapeCasts S4x1024
  bcast_S_S4x1024 : S_.BroadcastsInDim S4x1024 (![] : Fin 0 → Fin S4x1024.rank)
  shapeCasts_S4x1024_S1x4x1x1024 : S4x1024.ShapeCasts S1x4x1x1024
  bcast_S1x4x1x1024_S256x4x1x1024_0_1_2_3 : S1x4x1x1024.BroadcastsInDim S256x4x1x1024 (![0, 1, 2, 3] : Fin 4 → Fin S256x4x1x1024.rank)
  shapeCasts_S256x4x1x1024_S1024x1024 : S256x4x1x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024x1024_S1x1024x1024 : S1024x1024.ShapeCasts S1x1024x1024
  shapeCasts_S1x1024x1024_S1x1024x1024 : S1x1024x1024.ShapeCasts S1x1024x1024
  broadcasts_S1x1024x1024_S4x1024x1024 : S1x1024x1024.Broadcasts S4x1024x1024
  inb_S4x1024x1024_S4x1024x1024_0_0_0 : ∀ a, (![0, 0, 0] : Fin 3 → Nat) a + S4x1024x1024.size a ≤ S4x1024x1024.size a
  h_S4x1024x1024 : 0 < S4x1024x1024.numel
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .f32 = 32 ∨ (Rect.block (s := S1024x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1024x1024.size a ≤ S48x1024x1024.size a
  hwx0_1 : ∀ i : grid0.Coords, EltTy.bits .f32 = 32 ∨ (Rect.block (s := S48x1024x1024) S4x1024x1024.size (cc0_transform_1 i) (hinb0_1 i)).WholeWords (EltTy.packing .f32)

variable [Facts₀]

abbrev win0_0 : Pipeline.Window sig grid0 :=
  Pipeline.Window.ofSpec (Memref.whole main_v8) S1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v9) S4x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096 : Shape := ⟨1, ![4096]⟩
abbrev S0 : Shape := ⟨1, ![0]⟩
abbrev S1048576 : Shape := ⟨1, ![1048576]⟩
abbrev S_ : Shape := ⟨0, ![]⟩
abbrev S1048576x1 : Shape := ⟨2, ![1048576, 1]⟩
abbrev S1024x1024 : Shape := ⟨2, ![1024, 1024]⟩
abbrev S1x1024x1024 : Shape := ⟨3, ![1, 1024, 1024]⟩
abbrev S48x1024x1024 : Shape := ⟨3, ![48, 1024, 1024]⟩

abbrev nBuf : Space → Nat
  | .hbm => 50
  | .vmem => 0
  | .smem => 0
  | _ => 0

abbrev bufTy : (tb : Table) → Fin (tcTables nBuf tb) → BufTy
  | .hbm, ⟨0, _⟩ => ⟨S4096, .f32⟩
  | .hbm, ⟨1, _⟩ => ⟨S0, .i32⟩
  | .hbm, ⟨2, _⟩ => ⟨S1048576, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S1048576, .i32⟩
  | .hbm, ⟨10, _⟩ => ⟨S1048576, .i32⟩
  | .hbm, ⟨11, _⟩ => ⟨S_, .i32⟩
  | .hbm, ⟨12, _⟩ => ⟨S1048576, .i32⟩
  | .hbm, ⟨13, _⟩ => ⟨S1048576, .i1⟩
  | .hbm, ⟨14, _⟩ => ⟨S_, .i32⟩
  | .hbm, ⟨15, _⟩ => ⟨S1048576, .i32⟩
  | .hbm, ⟨16, _⟩ => ⟨S1048576, .i1⟩
  | .hbm, ⟨17, _⟩ => ⟨S_, .i32⟩
  | .hbm, ⟨18, _⟩ => ⟨S_, .i1⟩
  | .hbm, ⟨19, _⟩ => ⟨S1048576, .i1⟩
  | .hbm, ⟨20, _⟩ => ⟨S1048576, .i1⟩
  | .hbm, ⟨21, _⟩ => ⟨S1048576, .i1⟩
  | .hbm, ⟨22, _⟩ => ⟨S1048576, .i32⟩
  | .hbm, ⟨23, _⟩ => ⟨S1048576, .i32⟩
  | .hbm, ⟨24, _⟩ => ⟨S1048576, .i32⟩
  | .hbm, ⟨25, _⟩ => ⟨S_, .i32⟩
  | .hbm, ⟨26, _⟩ => ⟨S1048576, .i32⟩
  | .hbm, ⟨27, _⟩ => ⟨S1048576, .i1⟩
  | .hbm, ⟨28, _⟩ => ⟨S_, .i32⟩
  | .hbm, ⟨29, _⟩ => ⟨S1048576, .i32⟩
  | .hbm, ⟨30, _⟩ => ⟨S1048576, .i32⟩
  | .hbm, ⟨31, _⟩ => ⟨S1048576, .i32⟩
  | .hbm, ⟨32, _⟩ => ⟨S1048576x1, .i32⟩
  | .hbm, ⟨33, _⟩ => ⟨S1048576, .f32⟩
  | .hbm, ⟨34, _⟩ => ⟨S1048576, .f32⟩
  | .hbm, ⟨35, _⟩ => ⟨S_, .f32⟩
  | .hbm, ⟨36, _⟩ => ⟨S1048576, .f32⟩
  | .hbm, ⟨37, _⟩ => ⟨S1048576, .i1⟩
  | .hbm, ⟨38, _⟩ => ⟨S_, .f32⟩
  | .hbm, ⟨39, _⟩ => ⟨S_, .f32⟩
  | .hbm, ⟨40, _⟩ => ⟨S1048576, .f32⟩
  | .hbm, ⟨41, _⟩ => ⟨S1048576, .f32⟩
  | .hbm, ⟨42, _⟩ => ⟨S1048576, .f32⟩
  | .hbm, ⟨43, _⟩ => ⟨S1048576, .f32⟩
  | .hbm, ⟨44, _⟩ => ⟨S_, .f32⟩
  | .hbm, ⟨45, _⟩ => ⟨S1024x1024, .f32⟩
  | .hbm, ⟨46, _⟩ => ⟨S1024x1024, .f32⟩
  | .hbm, ⟨47, _⟩ => ⟨S1024x1024, .f32⟩
  | .hbm, ⟨48, _⟩ => ⟨S1x1024x1024, .f32⟩
  | .hbm, ⟨49, _⟩ => ⟨S48x1024x1024, .f32⟩
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_c_0 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_v5 : Ref sig .tc := ⟨.hbm, 12, rfl⟩
abbrev main_call0_v6 : Ref sig .tc := ⟨.hbm, 13, rfl⟩
abbrev main_call0_c_2 : Ref sig .tc := ⟨.hbm, 14, rfl⟩
abbrev main_call0_v7 : Ref sig .tc := ⟨.hbm, 15, rfl⟩
abbrev main_call0_v8 : Ref sig .tc := ⟨.hbm, 16, rfl⟩
abbrev main_call0_c_3 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_v1 : Ref sig .tc := ⟨.hbm, 24, rfl⟩
abbrev main_c_1 : Ref sig .tc := ⟨.hbm, 25, rfl⟩
abbrev main_v2 : Ref sig .tc := ⟨.hbm, 26, rfl⟩
abbrev main_v3 : Ref sig .tc := ⟨.hbm, 27, rfl⟩
abbrev main_c_2 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_cst : Ref sig .tc := ⟨.hbm, 35, rfl⟩
abbrev main_v10 : Ref sig .tc := ⟨.hbm, 36, rfl⟩
abbrev main_v11 : Ref sig .tc := ⟨.hbm, 37, rfl⟩
abbrev main_cst_3 : Ref sig .tc := ⟨.hbm, 38, rfl⟩
abbrev main_cst_4 : Ref sig .tc := ⟨.hbm, 39, rfl⟩
abbrev main_call1_v0 : Ref sig .tc := ⟨.hbm, 40, rfl⟩
abbrev main_call1_v1 : Ref sig .tc := ⟨.hbm, 41, rfl⟩
abbrev main_v12 : Ref sig .tc := ⟨.hbm, 42, rfl⟩
abbrev main_v13 : Ref sig .tc := ⟨.hbm, 43, rfl⟩
abbrev main_cst_5 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩

abbrev nD : Nat := 1
abbrev τ : Topo := Topo.v7x

variable {F : FTy → Type} [FloatOps F]

class Facts₀ : Prop where
  hz_S0 : S0.numel = 0
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S1024x1024 : S_.BroadcastsInDim S1024x1024 (![] : Fin 0 → Fin S1024x1024.rank)
  shapeCasts_S1048576_S1024x1024 : S1048576.ShapeCasts S1024x1024
  bcast_S1024x1024_S1x1024x1024_1_2 : S1024x1024.BroadcastsInDim S1x1024x1024 (![1, 2] : Fin 2 → Fin S1x1024x1024.rank)
  bcast_S1x1024x1024_S48x1024x1024_0_1_2 : S1x1024x1024.BroadcastsInDim S48x1024x1024 (![0, 1, 2] : Fin 3 → Fin S48x1024x1024.rank)
  gather_S4096_S1048576x1_S1048576_n_0_n_n_0_1_1_wf : GatherDims.WF S4096 S1048576x1 S1048576 [] [0] [] [0] [] 1 ![1]
  scatter_S1024x1024_S0_S1024x1024_01_n_n_0_wf : ScatterDims.WF S1024x1024 S0 S1024x1024 [0, 1] [] [] 0

variable [Facts₀]

def gather_S4096_S1048576x1_S1048576_n_0_n_n_0_1_1 : GatherDims S4096 S1048576x1 S1048576 where
  offsetDims := []
  collapsedSliceDims := [0]
  operandBatchingDims := []
  startIndicesBatchingDims := []
  startIndexMap := [0]
  indexVectorDim := 1
  sliceSizes := ![1]
  wf := gather_S4096_S1048576x1_S1048576_n_0_n_n_0_1_1_wf
def scatter_S1024x1024_S0_S1024x1024_01_n_n_0 : ScatterDims S1024x1024 S0 S1024x1024 where
  updateWindowDims := [0, 1]
  insertedWindowDims := []
  scatterDimsToOperandDims := []
  indexVectorDim := 0
  wf := scatter_S1024x1024_S0_S1024x1024_01_n_n_0_wf

class Facts : Prop extends Facts₀ where

variable [Facts]
-- ==== Proof.RefRun.lean ====
/-
  The reference program's run, read back.

  Its @main is a straight line of host operations once its two helper functions are unfolded where they are called
  (the integer remainder, which itself calls a scalar choice, and the float choice): 49 operations, listed here in
  order. Every weakly fair execution of that line terminates with each buffer at the composition of the operations
  that wrote it, applied to the launch contents. The result buffer's composition is named stage by stage below
  (`pos`, `picked`, `marks`, `sheet`, `out`), so that each stage can be read at an index on its own.
-/
import proofs.«115147_j57604101374655_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: three of @main, the remainder's twenty-one (its scalar choice
    one of them, into the nested call's buffer), fifteen of @main up to the comparison with one half, the float
    choice's three, and @main's last seven. -/
abbrev ops : List (HloOp τ sig (Elt F)) :=
  [ nullary main_c (emptyVec S0 hz_S0),
    nullary main_v0 (iotaInDim S1048576 32 0),
    nullary main_c_0 (constantI S_ 32 4096#32),
    TRef.unary (.of main_c_0 : TRef sig ⟨S_, .i32⟩) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S1048576 ![] bcast_S_S1048576),
    TRef.binary (.of main_v0 : TRef sig ⟨S1048576, .i32⟩) main_call0.v3 main_call0.v4 Host.remsi,
    TRef.nullary main_call0.c_1 (constantI S_ 32 0#32),
    TRef.unary main_call0.c_1 main_call0.v5 (broadcastInDim S1048576 ![] bcast_S_S1048576),
    TRef.binary main_call0.v4 main_call0.v5 main_call0.v6 (cmpi .ne),
    TRef.nullary main_call0.c_2 (constantI S_ 32 0#32),
    TRef.unary main_call0.c_2 main_call0.v7 (broadcastInDim S1048576 ![] bcast_S_S1048576),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S1048576 ![] bcast_S_S1048576),
    TRef.binary main_call0.v8 main_call0.v10 main_call0.v11 (cmpi .ne),
    TRef.binary main_call0.v11 main_call0.v6 main_call0.v12 andi,
    TRef.unary main_call0.call0.v0 main_call0.v13 (broadcastInDim S1048576 ![] bcast_S_S1048576),
    TRef.binary main_call0.v4 main_call0.v13 main_call0.v14 addi,
    TRef.ternary main_call0.v12 main_call0.v14 main_call0.v4 main_call0.v15 select,
    nullary main_c_1 (constantI S_ 32 0#32),
    unary main_c_1 main_v2 (broadcastInDim S1048576 ![] bcast_S_S1048576 : (⟨S_, .i32⟩ : BufTy).Contents (Elt F) → (⟨S1048576, .i32⟩ : BufTy).Contents (Elt F)),
    binary main_v1 main_v2 main_v3 (cmpi .slt : (⟨S1048576, .i32⟩ : BufTy).Contents (Elt F) → (⟨S1048576, .i32⟩ : BufTy).Contents (Elt F) → (⟨S1048576, .i1⟩ : BufTy).Contents (Elt F)),
    nullary main_c_2 (constantI S_ 32 4096#32),
    unary main_c_2 main_v4 (broadcastInDim S1048576 ![] bcast_S_S1048576 : (⟨S_, .i32⟩ : BufTy).Contents (Elt F) → (⟨S1048576, .i32⟩ : BufTy).Contents (Elt F)),
    binary main_v1 main_v4 main_v5 (addi : (⟨S1048576, .i32⟩ : BufTy).Contents (Elt F) → (⟨S1048576, .i32⟩ : BufTy).Contents (Elt F) → (⟨S1048576, .i32⟩ : BufTy).Contents (Elt F)),
    ternary main_v3 main_v5 main_v1 main_v6 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v6 main_v7 (broadcastInDim S1048576x1 ![0] bcast_S1048576_S1048576x1_0 : (⟨S1048576, .i32⟩ : BufTy).Contents (Elt F) → (⟨S1048576x1, .i32⟩ : BufTy).Contents (Elt F)),
    binary main_arg0 main_v7 main_v8 ((fun x i => Host.gather gather_S4096_S1048576x1_S1048576_n_0_n_n_0_1_1 x i) : (⟨S4096, .f32⟩ : BufTy).Contents (Elt F) → (⟨S1048576x1, .i32⟩ : BufTy).Contents (Elt F) → (⟨S1048576, .f32⟩ : BufTy).Contents (Elt F)),
    unary main_v8 main_v9 (Host.absf : (⟨S1048576, .f32⟩ : BufTy).Contents (Elt F) → (⟨S1048576, .f32⟩ : BufTy).Contents (Elt F)),
    nullary main_cst (constant S_ .f32 0x3F000000#32),
    unary main_cst main_v10 (broadcastInDim S1048576 ![] bcast_S_S1048576 : (⟨S_, .f32⟩ : BufTy).Contents (Elt F) → (⟨S1048576, .f32⟩ : BufTy).Contents (Elt F)),
    binary main_v9 main_v10 main_v11 (cmpf .ogt : (⟨S1048576, .f32⟩ : BufTy).Contents (Elt F) → (⟨S1048576, .f32⟩ : BufTy).Contents (Elt F) → (⟨S1048576, .i1⟩ : BufTy).Contents (Elt F)),
    nullary main_cst_3 (constant S_ .f32 0x3F800000#32),
    nullary main_cst_4 (constant S_ .f32 0x00000000#32),
    TRef.unary (.of main_cst_3 : TRef sig ⟨S_, .f32⟩) main_call1.v0 (broadcastInDim S1048576 ![] bcast_S_S1048576),
    TRef.unary (.of main_cst_4 : TRef sig ⟨S_, .f32⟩) main_call1.v1 (broadcastInDim S1048576 ![] bcast_S_S1048576),
    TRef.ternary (.of main_v11 : TRef sig ⟨S1048576, .i1⟩) main_call1.v0 main_call1.v1 main_call1.v2 select,
    unary main_v12 main_v13 (id : (⟨S1048576, .f32⟩ : BufTy).Contents (Elt F) → (⟨S1048576, .f32⟩ : BufTy).Contents (Elt F)),
    nullary main_cst_5 (constant S_ .f32 0x00000000#32),
    unary main_cst_5 main_v14 (broadcastInDim S1024x1024 ![] bcast_S_S1024x1024 : (⟨S_, .f32⟩ : BufTy).Contents (Elt F) → (⟨S1024x1024, .f32⟩ : BufTy).Contents (Elt F)),
    reshape main_v13 main_v15 rfl shapeCasts_S1048576_S1024x1024,
    ternary main_v14 main_c main_v15 main_v16 ((fun x i u => Host.scatter scatter_S1024x1024_S0_S1024x1024_01_n_n_0 (fun _ b => b) x i u) : (⟨S1024x1024, .f32⟩ : BufTy).Contents (Elt F) → (⟨S0, .i32⟩ : BufTy).Contents (Elt F) → (⟨S1024x1024, .f32⟩ : BufTy).Contents (Elt F) → (⟨S1024x1024, .f32⟩ : BufTy).Contents (Elt F)),
    unary main_v16 main_v17 (broadcastInDim S1x1024x1024 ![1, 2] bcast_S1024x1024_S1x1024x1024_1_2 : (⟨S1024x1024, .f32⟩ : BufTy).Contents (Elt F) → (⟨S1x1024x1024, .f32⟩ : BufTy).Contents (Elt F)),
    unary main_v17 main_v18 (broadcastInDim S48x1024x1024 ![0, 1, 2] bcast_S1x1024x1024_S48x1024x1024_0_1_2 : (⟨S1x1024x1024, .f32⟩ : BufTy).Contents (Elt F) → (⟨S48x1024x1024, .f32⟩ : BufTy).Contents (Elt F)) ]

-- forty-nine binds re-associated: the rewrite under the chain recurses once per statement
set_option maxRecDepth 1024 in
/-- @main is that straight line: the helper functions' bodies unfolded at their calls, both sides are one chain of
    operations once sequencing is re-associated. -/
theorem main_eq (c : Dev nD) : main (F := F) c = seq ops := by
  simp only [main, fn_remainder.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., nullary_bufs_sub .., unary_bufs_sub ..,
    binary_bufs_sub .., nullary_bufs_sub .., nullary_bufs_sub ..,
    unary_bufs_sub .., unary_bufs_sub .., ternary_bufs_sub ..,
    unary_bufs_sub .., nullary_bufs_sub .., unary_bufs_sub .., reshape_bufs_sub .., ternary_bufs_sub .., unary_bufs_sub ..,
    unary_bufs_sub ..⟩

/-- From any memory with zero counters every weakly fair execution of @main terminates, and every final state has each
    buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The result buffer's composition, stage by stage -/

/-- The divisor as the remainder helper uses it: `4096`, replaced by `1` were it zero. -/
def dvs : IVec S_ 32 :=
  select (cmpi .eq (id (constantI S_ 32 4096#32)) (constantI S_ 32 0#32)) (constantI S_ 32 1#32) (id (constantI S_ 32 4096#32))

/-- The truncated remainder of each position `0 … 2²⁰ − 1` by the divisor. -/
def rem0 : IVec S1048576 32 :=
  Host.remsi (iotaInDim S1048576 32 0) (broadcastInDim S1048576 ![] bcast_S_S1048576 dvs)

/-- The remainder with the divisor's sign (the divisor added back where the signs differ and the remainder is not zero). -/
def rem1 : IVec S1048576 32 :=
  select
    (andi
      (cmpi .ne (cmpi .slt rem0 (broadcastInDim S1048576 ![] bcast_S_S1048576 (constantI S_ 32 0#32)))
        (broadcastInDim S1048576 ![] bcast_S_S1048576 (cmpi .slt dvs (constantI S_ 32 0#32))))
      (cmpi .ne rem0 (broadcastInDim S1048576 ![] bcast_S_S1048576 (constantI S_ 32 0#32))))
    (addi rem0 (broadcastInDim S1048576 ![] bcast_S_S1048576 dvs)) rem0

/-- The position each result entry reads the argument at: the remainder, wrapped once were it negative. -/
def pos : IVec S1048576 32 :=
  select (cmpi .slt rem1 (broadcastInDim S1048576 ![] bcast_S_S1048576 (constantI S_ 32 0#32)))
    (addi rem1 (broadcastInDim S1048576 ![] bcast_S_S1048576 (constantI S_ 32 4096#32))) rem1

/-- The argument's entries taken at those positions. -/
def picked (x : FVec F S4096 .f32) : FVec F S1048576 .f32 :=
  Host.gather gather_S4096_S1048576x1_S1048576_n_0_n_n_0_1_1 x (broadcastInDim S1048576x1 ![0] bcast_S1048576_S1048576x1_0 pos)

/-- Their indicators: `1.0` where the absolute value exceeds one half, else `0.0`. -/
def marks (x : FVec F S4096 .f32) : FVec F S1048576 .f32 :=
  id (select
    (cmpf .ogt (Host.absf (picked x)) (broadcastInDim S1048576 ![] bcast_S_S1048576 (constant S_ .f32 0x3F000000#32)))
    (broadcastInDim S1048576 ![] bcast_S_S1048576 (constant S_ .f32 0x3F800000#32))
    (broadcastInDim S1048576 ![] bcast_S_S1048576 (constant S_ .f32 0x00000000#32)))

/-- The indicators laid out as a 1024 × 1024 sheet and written over a sheet of zeros, whole. -/
def sheet (x : FVec F S4096 .f32) : FVec F S1024x1024 .f32 :=
  Host.scatter scatter_S1024x1024_S0_S1024x1024_01_n_n_0 (fun _ b => b)
    (broadcastInDim S1024x1024 ![] bcast_S_S1024x1024 (constant S_ .f32 0x00000000#32))
    (emptyVec S0 hz_S0 : IVec S0 32)
    (shapeCast S1024x1024 (marks x) shapeCasts_S1048576_S1024x1024)

/-- The sheet copied to each of the 48 channels. -/
def out (x : FVec F S4096 .f32) : FVec F S48x1024x1024 .f32 :=
  broadcastInDim S48x1024x1024 ![0, 1, 2] bcast_S1x1024x1024_S48x1024x1024_0_1_2
    (broadcastInDim S1x1024x1024 ![1, 2] bcast_S1024x1024_S1x1024x1024_1_2 (sheet x))

-- the gather, the scatter and the remainder are kept folded while the two sides are compared: the equation never
-- looks inside them, and the scatter's body is a fold over a million update positions
attribute [local irreducible] Host.gather Host.scatter Host.remsi in
/-- The fold at the result buffer is `out` of the argument: each operation's result is its function of its operands'
    buffers, and the stages above are those functions composed. -/
theorem out_eq (V : Valuation τ sig (Elt F)) :
    after ops V (main_v18 : DevRef τ sig) = out (V (main_arg0 : DevRef τ sig)) := by
  after_results_simp
  unfold out sheet marks picked pos rem1 rem0 dvs
  rfl

/-- No operation writes the argument. -/
theorem arg0_eq (V : Valuation τ sig (Elt F)) :
    after ops V (main_arg0 : DevRef τ sig) = V (main_arg0 : DevRef τ sig) := by
  after_results_simp

/-- From any memory with zero counters every weakly fair execution of @main terminates with the result buffer at `out`
    of the argument's launch contents and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = out (m ((c.tc : Thread nD τ).loc main_arg0))
      ∧ r.2.mem ((c.tc : Thread nD τ).loc main_arg0) = m ((c.tc : Thread nD τ).loc main_arg0) :=
  (θ_run defs _ _).mono (fun _ h c => ⟨(h c main_v18).trans (out_eq _), (h c main_arg0).trans (arg0_eq _)⟩) (run_main m ρ)

end Cert.ReferenceIdeal.RefRun

end
-- ==== Proof.Spec.lean ====
/-
  What both programs compute, as ONE function of the argument array.

  The argument is 4096 floats. Entry `(ch, r, c)` of the result (48 sheets of 1024 × 1024) is the indicator of
  `|x| > 1/2` at the entry of the argument numbered `(1024·r + c) mod 4096`: the sheet is the argument's 4096
  indicators laid out row-major, over and over (four rows of 1024 use them up, so row `r` repeats row `r mod 4`),
  and every sheet is the same. The indicator is a comparison and a choice between the two words `1.0` and `0.0`:
  no arithmetic is done on the floats, so the function is stated for any float instance and nothing below needs the
  inputs finite.
-/
import Idealize.ShloMosaic.PureOps
import Idealize.ShloMosaic.Lib.ValueIdx

noncomputable section

namespace Cert.Pattern

open Idealize.ShloMosaic Idealize.ShloMosaic.ValueIdx

variable {F : FTy → Type} [FloatOps F]

/-- One entry's indicator: the word `1.0` where `|x| > 1/2` (an ordered comparison), the word `0.0` elsewhere. -/
def thr (x : F .f32) : F .f32 :=
  Scalar.select (FloatOps.cmpf .ogt (FloatOps.hostAbsf x) (FloatOps.ofBits .f32 0x3F000000#32))
    (FloatOps.ofBits .f32 0x3F800000#32) (FloatOps.ofBits .f32 0x00000000#32)

/-- The argument's entry that result position `(r, c)` of a sheet looks at. -/
def src (r c : Nat) : Fin 4096 := ⟨(r * 1024 + c) % 4096, Nat.mod_lt _ (by decide)⟩

/-- The whole result: at `(ch, r, c)` the indicator of the argument's entry `(1024·r + c) mod 4096`. -/
def G (x : FVec F (⟨1, ![4096]⟩ : Shape) .f32) : FVec F (⟨3, ![48, 1024, 1024]⟩ : Shape) .f32 :=
  fun j => thr (x (ix1 (src (j 1).val (j 2).val)))

/-- Row `r` of a sheet repeats row `r mod 4`: the entry numbered `(r mod 4)·1024 + c` is the one `src` names. -/
theorem src_eq_of_row (r c : Nat) (hc : c < 1024) : (src r c).val = (r % 4) * 1024 + c := by
  show (r * 1024 + c) % 4096 = (r % 4) * 1024 + c
  omega

end Cert.Pattern

end
-- ==== Proof.RefValue.lean ====
/-
  The reference's result, read at an index, is the function `Cert.Pattern.G` of the argument.

  Reading `out x` at `(ch, r, c)` from the outside in: the two broadcasts drop the channel and read the sheet at
  `(r, c)`; the scatter has no index vector and a window as large as its operand, so it overwrites the sheet of zeros
  whole and the sheet is the update; the reshape reads the flat vector at the row-major position `1024·r + c`; there the
  indicator is taken, entry by entry, of what the gather picked; the gather picks the argument's entry at the position
  word read signed and clamped into the table; and the position word at `n` is `n mod 4096`: the truncated remainder of a
  non-negative word by the positive `4096` is the natural remainder, it already has the divisor's sign, and it is not
  negative, so neither correction changes it and the clamp does nothing.
-/
import proofs.«115147_j57604101374655_1_alg».proof.Proof.RefRun
import proofs.«115147_j57604101374655_1_alg».proof.Proof.Spec
import Idealize.ShloMosaic.Lib.StableHlo.Predicate
import Idealize.ShloMosaic.Lib.Affine
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.RefRun Cert.Pattern
open Idealize.ShloMosaic Idealize.ShloMosaic.ValueIdx Idealize.ShloMosaic.StableHlo.Predicate

variable {F : FTy → Type} [FloatOps F]

/-! ## A scatter whose window is its whole operand -/

/-- A run of overwrites `r[σ n] := v (σ n)` leaves `v` at every position some `σ n` named and `r` elsewhere. -/
theorem foldl_overwrite {ι κ α : Type} [DecidableEq ι] (σ : κ → ι) (v : ι → α) (l : List κ) (r : ι → α) (i : ι) :
    (l.foldl (fun r n => fun i' => if i' = σ n then v (σ n) else r i') r) i = if i ∈ l.map σ then v i else r i := by
  induction l generalizing r with
  | nil => simp
  | cons n l ih =>
    rw [List.foldl_cons, ih]
    by_cases h1 : i ∈ l.map σ
    · have hm : i ∈ (n :: l).map σ := List.mem_cons_of_mem _ h1
      rw [if_pos h1, if_pos hm]
    · by_cases h2 : i = σ n
      · have hm : i ∈ (n :: l).map σ := List.mem_cons.mpr (Or.inl h2)
        rw [if_neg h1, if_pos h2, if_pos hm, h2]
      · have hm : ¬ i ∈ (n :: l).map σ := fun h => (List.mem_cons.mp h).elim h2 h1
        rw [if_neg h1, if_neg h2, if_neg hm]

/-- A scatter that sends every update position to the same position of the operand, its body returning the update,
    leaves the update: each position is overwritten by its own update, whatever the order. -/
theorem scatter_whole {s si : Shape} {α : Type} {w : Nat} (d : ScatterDims s si s) (x : s.Idx → α) (idx : IVec si w)
    (upd : s.Idx → α) (h : ∀ j, d.resultIdx? j idx = some j) : Host.scatter d (fun _ b => b) x idx upd = upd := by
  funext i
  unfold Host.scatter
  simp only [h]
  exact (foldl_overwrite (fun n => s.rowMajor.symm n) upd (List.finRange s.numel) x i).trans
    (if_pos (List.mem_map.mpr ⟨s.rowMajor i, List.mem_finRange _, s.rowMajor.symm_apply_apply i⟩))

/-- The reference's scatter: no index vector, so every window starts at the origin; the window's two axes are the
    operand's two axes in order, so update position `j` lands on operand position `j`. -/
theorem resultIdx_self (idx : IVec S0 32) (j : S1024x1024.Idx) :
    scatter_S1024x1024_S0_S1024x1024_01_n_n_0.resultIdx? j idx = some j := by
  have hs : ∀ a, scatter_S1024x1024_S0_S1024x1024_01_n_n_0.start j idx a = 0 := fun a => rfl
  have hw : ∀ a, scatter_S1024x1024_S0_S1024x1024_01_n_n_0.window j a = (j a).val := fun a => by
    match a with
    | ⟨0, _⟩ => rfl
    | ⟨1, _⟩ => rfl
  unfold ScatterDims.resultIdx?
  rw [dif_pos (fun a => by rw [hs a, hw a]; have := (j a).isLt; omega)]
  refine congrArg some (funext fun a => Fin.ext ?_)
  show (scatter_S1024x1024_S0_S1024x1024_01_n_n_0.start j idx a + scatter_S1024x1024_S0_S1024x1024_01_n_n_0.window j a).toNat = (j a).val
  rw [hs a, hw a]
  omega

/-- The sheet is the indicators, reshaped. -/
theorem sheet_eq (x : FVec F S4096 .f32) : sheet x = shapeCast S1024x1024 (marks x) shapeCasts_S1048576_S1024x1024 :=
  scatter_whole _ _ _ _ (resultIdx_self _)

/-! ## The position word -/

theorem bit_zero_of_ne_one (b : BitVec 1) (h : b ≠ 1#1) : b = 0#1 := by revert h; revert b; decide

/-- A word in `[0, 4096)` is not negative. -/
theorem not_neg_of_small (w : BitVec 32) (hw : w.toNat < 4096) : IntOp.cmpi .slt w 0#32 = 0#1 :=
  bit_zero_of_ne_one _ fun h => absurd ((slt_iff_toNat (by omega) (by decide)).mp h) (Nat.not_lt_zero _)

theorem select_zero (a b : BitVec 32) : Scalar.select (0#1 : BitVec 1) a b = b := if_neg (by decide)

/-- The remainder's sign correction leaves a word in `[0, 4096)` under the divisor `4096`: neither is negative, so
    the signs agree and the divisor is not added back. -/
theorem sign_fix_id (w : BitVec 32) (hw : w.toNat < 4096) :
    Scalar.select
      (IntOp.andi (IntOp.cmpi .ne (IntOp.cmpi .slt w 0#32) (IntOp.cmpi .slt (4096#32 : BitVec 32) 0#32)) (IntOp.cmpi .ne w 0#32))
      (IntOp.addi w 4096#32) w = w := by
  have hd0 : IntOp.cmpi .slt (4096#32 : BitVec 32) 0#32 = 0#1 := by decide
  have hne : IntOp.cmpi .ne (0#1 : BitVec 1) 0#1 = 0#1 := by decide
  have hand : ∀ c : BitVec 1, IntOp.andi 0#1 c = 0#1 := by decide
  rw [not_neg_of_small w hw, hd0, hne, hand, select_zero]

/-- The negative-index wrap leaves a word in `[0, 4096)`: it is not negative. -/
theorem wrap_id (w : BitVec 32) (hw : w.toNat < 4096) :
    Scalar.select (IntOp.cmpi .slt w 0#32) (IntOp.addi w 4096#32) w = w := by
  rw [not_neg_of_small w hw, select_zero]

/-- The remainder helper's divisor is `4096` (it is not zero, so it is not replaced). -/
theorem dvs_apply (i : S_.Idx) : dvs i = 4096#32 := by
  show Scalar.select (IntOp.cmpi .eq (4096#32 : BitVec 32) 0#32) (1#32 : BitVec 32) 4096#32 = 4096#32
  decide

/-- The truncated remainder of position `p` by `4096`, as a natural. -/
theorem toNat_rem (p : Fin 1048576) :
    (IntOp.remsi .host (BitVec.ofNat 32 p.val) 4096#32).toNat = p.val % 4096 := by
  have hp := p.isLt
  have h := IntOp.toNat_remsi .host (x := BitVec.ofNat 32 p.val) (by rw [BitVec.toNat_ofNat]; omega) 4096 (by decide) (by decide)
  rw [BitVec.toNat_ofNat, Nat.mod_eq_of_lt (by omega : p.val < 2 ^ 32)] at h
  exact h

/-- The truncated remainder at position `p`. -/
theorem rem0_apply (p : Fin 1048576) :
    rem0 (Shape.Idx.ofFin p) = IntOp.remsi .host (BitVec.ofNat 32 p.val) 4096#32 := by
  show IntOp.remsi .host (BitVec.ofNat 32 p.val) (dvs ix0) = _
  rw [dvs_apply]

/-- With the divisor's sign it is the same word. -/
theorem rem1_apply (p : Fin 1048576) :
    rem1 (Shape.Idx.ofFin p) = IntOp.remsi .host (BitVec.ofNat 32 p.val) 4096#32 := by
  have hlt : (IntOp.remsi .host (BitVec.ofNat 32 p.val) 4096#32).toNat < 4096 := by
    rw [toNat_rem]; exact Nat.mod_lt _ (by decide)
  show Scalar.select
      (IntOp.andi (IntOp.cmpi .ne (IntOp.cmpi .slt (rem0 (Shape.Idx.ofFin p)) 0#32) (IntOp.cmpi .slt (dvs ix0) 0#32))
        (IntOp.cmpi .ne (rem0 (Shape.Idx.ofFin p)) 0#32))
      (IntOp.addi (rem0 (Shape.Idx.ofFin p)) (dvs ix0)) (rem0 (Shape.Idx.ofFin p)) = _
  rw [rem0_apply, dvs_apply]
  exact sign_fix_id _ hlt

/-- The position word at `p` is that word too, and as a natural it is `p mod 4096`. -/
theorem pos_apply (p : Fin 1048576) :
    pos (Shape.Idx.ofFin p) = IntOp.remsi .host (BitVec.ofNat 32 p.val) 4096#32 := by
  have hlt : (IntOp.remsi .host (BitVec.ofNat 32 p.val) 4096#32).toNat < 4096 := by
    rw [toNat_rem]; exact Nat.mod_lt _ (by decide)
  show Scalar.select (IntOp.cmpi .slt (rem1 (Shape.Idx.ofFin p)) 0#32) (IntOp.addi (rem1 (Shape.Idx.ofFin p)) 4096#32)
      (rem1 (Shape.Idx.ofFin p)) = _
  rw [rem1_apply]
  exact wrap_id _ hlt

theorem toNat_pos (p : Fin 1048576) : (pos (Shape.Idx.ofFin p)).toNat = p.val % 4096 := by
  rw [pos_apply, toNat_rem]

/-! ## The stages at an index -/

theorem ofFin_eq_ix1 {n : Nat} (k : Fin n) : Shape.Idx.ofFin k = ix1 k := by
  funext d; match d with | ⟨0, _⟩ => rfl

/-- The gather picks, at position `p`, the argument's entry `p mod 4096`: the position word is in range, so the
    clamp into the table leaves it. -/
theorem picked_apply (x : FVec F S4096 .f32) (p : Fin 1048576) :
    picked x (Shape.Idx.ofFin p) = x (ix1 ⟨p.val % 4096, Nat.mod_lt _ (by decide)⟩) := by
  unfold picked
  rw [gather_take gather_S4096_S1048576x1_S1048576_n_0_n_n_0_1_1 rfl rfl rfl rfl x _ p (by decide), ← ofFin_eq_ix1]
  refine congrArg x (congrArg Shape.Idx.ofFin (Fin.ext ?_))
  show min (broadcastInDim S1048576x1 ![0] bcast_S1048576_S1048576x1_0 pos (ixP p)).toInt.toNat (4096 - 1) = p.val % 4096
  have hlt : p.val % 4096 < 4096 := Nat.mod_lt _ (by decide)
  rw [bcast_col1, toInt_eq_toNat_of_lt (by rw [toNat_pos]; omega), Int.toNat_natCast, toNat_pos]
  omega

/-- The indicators are taken entry by entry. -/
theorem marks_apply (x : FVec F S4096 .f32) (n : S1048576.Idx) : marks x n = thr (picked x n) := rfl

/-- The sheet at `(r, c)` is the indicator at the flat position `1024·r + c`. -/
theorem sheet_apply (x : FVec F S4096 .f32) (r c : Fin 1024) :
    sheet x (ix2 r c) = marks x (Shape.Idx.ofFin ⟨r.val * 1024 + c.val, by have := r.isLt; have := c.isLt; omega⟩) := by
  rw [sheet_eq]
  refine shapeCast_apply _ _ _ _ ?_
  rw [Shape.rowMajor_val_one, Shape.rowMajor_val_two]
  rfl

/-- Every channel of the result is the sheet. -/
theorem out_apply (x : FVec F S4096 .f32) (ch : Fin 48) (r c : Fin 1024) : out x (ix3 ch r c) = sheet x (ix2 r c) := by
  unfold out
  refine (broadcastInDim_apply _ _ _ (ix3 ch r c) (ix3 (0 : Fin 1) r c) (fun a => ?_)).trans
    (broadcastInDim_apply _ _ _ (ix3 (0 : Fin 1) r c) (ix2 r c) (fun a => ?_))
  · match a with
    | ⟨0, _⟩ => rfl
    | ⟨1, _⟩ => rfl
    | ⟨2, _⟩ => rfl
  · match a with
    | ⟨0, _⟩ => rfl
    | ⟨1, _⟩ => rfl

/-- THE REFERENCE'S RESULT is `G` of the argument, at any float instance. -/
theorem out_eq_G (x : FVec F S4096 .f32) : out x = G x := by
  funext j
  obtain ⟨ch, r, c, rfl⟩ : ∃ (ch : Fin 48) (r : Fin 1024) (c : Fin 1024), j = ix3 ch r c := ⟨j 0, j 1, j 2, eq_ix3 j⟩
  rw [out_apply, sheet_apply, marks_apply, picked_apply]
  rfl

end Cert.ReferenceIdeal.RefValue

end
-- ==== Proof.KernelValue.lean ====
/-
  The kernel program's result array, as one function of the argument: `Cert.Pattern.G`.

  Before its one region the program computes, on the host, the 1024 × 1024 sheet the region reads: the argument as
  4 rows of 1024, each entry's indicator, the 4 rows stacked 256 times (`tiled`; row `r` of the sheet is row `r mod 4`
  of the indicators). The region has 12 points; at each it loads the whole sheet and stores it to each of the 4
  channels of the point's block of the result, so point `t` writes channels `4t … 4t + 3`. The blocks tile the
  result, so after the run every entry `(ch, r, c)` is the sheet's `(r, c)`, which is `G`.
-/
import proofs.«115147_j57604101374655_1_alg».proof.Proof.Gen.KernelIdeal.Value
import proofs.«115147_j57604101374655_1_alg».proof.Proof.Spec
import Idealize.ShloMosaic.Lib.Pipeline.Value
import Idealize.ShloMosaic.Lib.StableHlo.Run
import Idealize.ShloMosaic.Lib.ValueIdx

noncomputable section

namespace Cert.KernelIdeal.KValue

open Cert.KernelIdeal Cert.KernelIdeal.Gen Cert.KernelIdeal.Value Cert.Pattern
open Idealize.ShloMosaic Idealize.ShloMosaic.TcCoe Idealize.SL.Sem Idealize.ShloMosaic.ValueIdx Idealize.ShloMosaic.StableHlo
open Idealize.ShloMosaic.Pipeline (Dat)

variable {F : FTy → Type} [FloatOps F]

/-! ## The sheet the host computes before the region -/

/-- The argument as 4 rows of 1024, entry by entry its indicator. -/
def pattern (x : FVec F S4096 .f32) : FVec F S4x1024 .f32 :=
  id (select
    (cmpf .ogt (Host.absf (shapeCast S4x1024 x shapeCasts_S4096_S4x1024)) (broadcastInDim S4x1024 ![] bcast_S_S4x1024 (constant S_ .f32 0x3F000000#32)))
    (broadcastInDim S4x1024 ![] bcast_S_S4x1024 (constant S_ .f32 0x3F800000#32))
    (broadcastInDim S4x1024 ![] bcast_S_S4x1024 (constant S_ .f32 0x00000000#32)))

/-- The 4 rows stacked 256 times: a 1024 × 1024 sheet. -/
def tiled (x : FVec F S4096 .f32) : FVec F S1024x1024 .f32 :=
  shapeCast S1024x1024
    (broadcastInDim S256x4x1x1024 ![0, 1, 2, 3] bcast_S1x4x1x1024_S256x4x1x1024_0_1_2_3
      (shapeCast S1x4x1x1024 (pattern x) shapeCasts_S4x1024_S1x4x1x1024))
    shapeCasts_S256x4x1x1024_S1024x1024

/-- Row `r` of the sheet is row `r mod 4` of the indicators: at `(r, c)` it is the indicator of the argument's entry
    `(r mod 4)·1024 + c`, which is entry `(1024·r + c) mod 4096`. -/
theorem tiled_apply (x : FVec F S4096 .f32) (r c : Fin 1024) : tiled x (ix2 r c) = thr (x (ix1 (src r.val c.val))) := by
  have hr := r.isLt
  have hc := c.isLt
  unfold tiled
  refine (shapeCast_apply _ _ (ix2 r c)
    (ix4 (⟨r.val / 4, by omega⟩ : Fin 256) (⟨r.val % 4, by omega⟩ : Fin 4) (0 : Fin 1) c) ?_).trans ?_
  · rw [Shape.rowMajor_val_four, Shape.rowMajor_val_two]
    show ((r.val / 4 * 4 + r.val % 4) * 1 + 0) * 1024 + c.val = r.val * 1024 + c.val
    omega
  refine (broadcastInDim_apply _ _ _ _ (ix4 (0 : Fin 1) (⟨r.val % 4, by omega⟩ : Fin 4) (0 : Fin 1) c) (fun a => ?_)).trans ?_
  · match a with
    | ⟨0, _⟩ => rfl
    | ⟨1, _⟩ => rfl
    | ⟨2, _⟩ => rfl
    | ⟨3, _⟩ => rfl
  refine (shapeCast_apply _ _ _ (ix2 (⟨r.val % 4, by omega⟩ : Fin 4) c) ?_).trans ?_
  · rw [Shape.rowMajor_val_two, Shape.rowMajor_val_four]
    show r.val % 4 * 1024 + c.val = ((0 * 4 + r.val % 4) * 1 + 0) * 1024 + c.val
    omega
  show thr (shapeCast S4x1024 x shapeCasts_S4096_S4x1024 (ix2 (⟨r.val % 4, by omega⟩ : Fin 4) c)) = _
  refine congrArg thr ((shapeCast_apply _ _ _ (ix1 (src r.val c.val)) ?_).trans rfl)
  rw [Shape.rowMajor_val_one, Shape.rowMajor_val_two]
  show (src r.val c.val).val = r.val % 4 * 1024 + c.val
  exact src_eq_of_row _ _ hc

variable (m : (ℓ : Loc nD τ sig) → Buf (Elt F) ℓ) (ρ : Dev nD → PrngReg)

/-- The array the region's input window stages is the sheet of the argument as launched: the fourteen host operations
    before the region, composed. -/
theorem V_main_v8 (c : Dev nD) :
    (V m c main_v8 : S1024x1024.Idx → Elt F .f32) = tiled (m ((c : Thread nD τ).loc main_arg0)) := by
  dsimp only [V]
  simp only [hostOps0, hostOps0_1, hostOps0_2, List.flatten_cons, List.flatten_nil, List.append_nil, List.cons_append,
    List.nil_append]
  after_results
  rfl

/-! ## From blocks to the array -/

theorem hz2 : (![0, 0] : Fin 2 → Nat) = fun _ => 0 := funext fun a => by fin_cases a <;> rfl

/-- The printed index maps over the 12 points: the input window always stages the whole sheet; point `t`'s output
    block is the `t`-th along the channel axis. -/
theorem idx_facts : ∀ t : Fin cfg0.N, win0_0.index t (0 : Fin 2) = 0 ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

/-- WHAT POINT `t` WRITES BACK is block `t` of `G` of the argument: the body leaves, at `(a, r, c)` of the block, the
    sheet's `(r, c)`, whatever the channel `a`. -/
theorem flushed_eq (c : Dev nD) (t : Fin cfg0.N) :
    (dats m 0 c).flushed 1 t = ((cfg0.win 1).blk t).view.read (Elt F) (G (m ((c : Thread nD τ).loc main_arg0))) := by
  rw [flushed1]
  obtain ⟨e0, e1, e2, e3, e4⟩ := idx_facts t
  funext j
  have hj1 : (j 1).val < 1024 := (j 1).isLt
  have hj2 : (j 2).val < 1024 := (j 2).isLt
  show out0_1 (iblk m c 0 t) j = G (m ((c : Thread nD τ).loc main_arg0)) (((cfg0.win 1).blk t).view.emb j)
  unfold out0_1
  refine (canon1_eq _ j).trans ?_
  show View.ld (iblk m c 0 t) r0_0 (ix1_0 j) = _
  rw [View.ld_unit_zero (S := S1024x1024) hz2]
  show V m c main_v8 (((cfg0.win 0).blk t).view.emb (ix1_0 j)) = _
  have hin : ((cfg0.win 0).blk t).view.emb (ix1_0 j) = ix2 (⟨(j 1).val, hj1⟩ : Fin 1024) (⟨(j 2).val, hj2⟩ : Fin 1024) := by
    funext a; apply Fin.ext
    match a with
    | ⟨0, _⟩ => show win0_0.index t (0 : Fin 2) * 1024 + 1 * (j 1).val = (j 1).val; omega
    | ⟨1, _⟩ => show win0_0.index t (1 : Fin 2) * 1024 + 1 * (j 2).val = (j 2).val; omega
  have h1 : ((((cfg0.win 1).blk t).view.emb j) 1).val = (j 1).val := by
    show win0_1.index t (1 : Fin 3) * 1024 + 1 * (j 1).val = (j 1).val; omega
  have h2 : ((((cfg0.win 1).blk t).view.emb j) 2).val = (j 2).val := by
    show win0_1.index t (2 : Fin 3) * 1024 + 1 * (j 2).val = (j 2).val; omega
  rw [hin, V_main_v8, tiled_apply]
  show _ = thr (m ((c : Thread nD τ).loc main_arg0)
    (ix1 (src ((((cfg0.win 1).blk t).view.emb j) 1).val ((((cfg0.win 1).blk t).view.emb j) 2).val)))
  rw [h1, h2]

/-- An index of the result is in point `t`'s block iff each coordinate is in the block's range on its axis. -/
theorem mem_blk (t : Fin cfg0.N) (i : S48x1024x1024.Idx) :
    i ∈ ((cfg0.win 1).blk t).view.set ↔ ∀ a : Fin 3, win0_1.index t a * S4x1024x1024.size a ≤ (i a).val ∧ (i a).val < win0_1.index t a * S4x1024x1024.size a + S4x1024x1024.size a := by
  show i ∈ ((View.whole main_v9).slice (win0_1.rect t)).set ↔ _
  rw [View.set_slice_whole, Rect.mem_set_unit]
  exact Iff.rfl

/-- The 12 blocks tile the result: channel `ch` lies in the block of point `ch / 4`. -/
theorem cover (i : S48x1024x1024.Idx) :
    ∃ t : Fin cfg0.N, (cfg0.win 1).flush t = true ∧ i ∈ ((cfg0.win 1).blk t).view.set := by
  have hi0 : (i 0).val < 48 := (i 0).isLt
  have hi1 : (i 1).val < 1024 := (i 1).isLt
  have hi2 : (i 2).val < 1024 := (i 2).isLt
  refine ⟨(⟨(i 0).val / 4, by show (i 0).val / 4 < 12; omega⟩ : Fin cfg0.N), flush0_1 _, ?_⟩
  obtain ⟨e0, e1, e2, e3, e4⟩ := idx_facts (⟨(i 0).val / 4, by show (i 0).val / 4 < 12; omega⟩ : Fin cfg0.N)
  rw [mem_blk]
  intro a
  match a with
  | ⟨0, _⟩ => show win0_1.index _ (0 : Fin 3) * 4 ≤ (i 0).val ∧ (i 0).val < win0_1.index _ (0 : Fin 3) * 4 + 4; rw [e2]; show (i 0).val / 4 * 4 ≤ (i 0).val ∧ (i 0).val < (i 0).val / 4 * 4 + 4; omega
  | ⟨1, _⟩ => show win0_1.index _ (1 : Fin 3) * 1024 ≤ (i 1).val ∧ (i 1).val < win0_1.index _ (1 : Fin 3) * 1024 + 1024; rw [e3]; omega
  | ⟨2, _⟩ => show win0_1.index _ (2 : Fin 3) * 1024 ≤ (i 2).val ∧ (i 2).val < win0_1.index _ (2 : Fin 3) * 1024 + 1024; rw [e4]; omega

/-- THE RESULT ARRAY after the run is `G` of the argument as launched. -/
theorem final (c : Dev nD) : (dats m 0 c).arrAt 1 cfg0.N = G (m ((c : Thread nD τ).loc main_arg0)) :=
  (dats m 0 c).arrAt_eq_of_cover 1 (G (m ((c : Thread nD τ).loc main_arg0))) (fun t _ => flushed_eq m c t) cover

/-- Every weakly fair execution of the program terminates with the result buffer at `G` of the argument and the
    argument unchanged. -/
theorem run : θ_run defs (onTc (τ := τ) (main (F := F))) ⟨m, fun _ => 0, ρ⟩ fun r => ∀ c : Dev nD,
      r.2.mem ((c : Thread nD τ).loc main_v9) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.KValue

end
-- ==== Proof.lean ====
/-
  The kernel program and its reference compute the same 48 × 1024 × 1024 array from 4096 floats: entry `(ch, r, c)` is
  the indicator (`1.0` or `0.0`) of `|x| > 1/2` at the argument's entry `(1024·r + c) mod 4096` (`Cert.Pattern.G`,
  Proof/Spec.lean).

  The reference takes the indicator of the argument gathered at the positions `n mod 4096`, `n < 2²⁰`, lays the 2²⁰
  indicators out as a 1024 × 1024 sheet, writes the sheet whole over a sheet of zeros and copies it to the 48 channels
  (its run: Proof/RefRun.lean; read at an index: Proof/RefValue.lean). The kernel program views the argument as 4 rows
  of 1024, takes the indicators, stacks the 4 rows 256 times into the sheet on the host, and its one region copies the
  sheet into the result four channels at a time over 12 points (Proof/KernelValue.lean, over the generated frame run and
  the generated blockwise reading of it). The two agree because `1024·r mod 4096 = 1024·(r mod 4)`. No arithmetic is
  done on the floats — a comparison and a choice between two words — so the agreement holds entry by entry for every
  input and the precondition is not used; nothing was rewritten when the kernel was idealized, so that claim is empty.
  The three runs (terminating, nothing faulting, the argument unchanged) are the generated frames for the two kernel
  programs and the reference's hand-listed run.
-/
import proofs.«115147_j57604101374655_1_alg».proof.Defs
import proofs.«115147_j57604101374655_1_alg».proof.Proof.Gen.Kernel
import proofs.«115147_j57604101374655_1_alg».proof.Proof.Gen.Kernel.Frame
import proofs.«115147_j57604101374655_1_alg».proof.Proof.Gen.KernelIdeal
import proofs.«115147_j57604101374655_1_alg».proof.Proof.Gen.KernelIdeal.Frame
import proofs.«115147_j57604101374655_1_alg».proof.Proof.Gen.ReferenceIdeal
import proofs.«115147_j57604101374655_1_alg».proof.Proof.Gen.Pre_finite_inputs
import proofs.«115147_j57604101374655_1_alg».proof.Proof.RefRun
import proofs.«115147_j57604101374655_1_alg».proof.Proof.RefValue
import proofs.«115147_j57604101374655_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and leaves its argument as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its argument as launched: its run, with the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- From memories that agree on the argument both programs end with the result at `G` of it. -/
theorem algebraic : Cert.algebraic_KernelIdeal_ReferenceIdeal := by
  intro m ρ m' ρ' _ hagree
  refine ⟨_, Cert.KernelIdeal.KValue.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.out_eq_G, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
